-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8388608 : Shape := ⟨2, ![4, 8388608]⟩
abbrev S_ : Shape := ⟨0, ![]⟩

class Facts : Prop where
  bcast_S_S4x8388608 : S_.BroadcastsInDim S4x8388608 (![] : Fin 0 → Fin S4x8388608.rank)
  reducesTo_S4x8388608_S_d0_1 : S4x8388608.ReducesTo [0, 1] S_
  h_S_ : 0 < S_.numel

variable [Facts]

def fn {F : FTy → Type} [FloatOps F] (main_arg0 : FVec F S4x8388608 .f32) : IVec S_ 1 :=
  let main_v0 : FVec F S4x8388608 .f32 := Host.absf main_arg0
  let main_cst : FVec F S_ .f32 := constant S_ .f32 0x7F800000#32
  let main_v1 : FVec F S4x8388608 .f32 := broadcastInDim S4x8388608 ![] bcast_S_S4x8388608 main_cst
  let main_v2 : IVec S4x8388608 1 := cmpf .olt main_v0 main_v1
  let main_c : IVec S_ 1 := constantI S_ 1 1#1
  let main_v3 : IVec S_ 1 := (fun x v => Host.reduce IntOp.andi x v reducesTo_S4x8388608_S_d0_1 h_S_) main_v2 main_c
  main_v3
-- ==== Kernel.lean ====
abbrev S4x8388608 : Shape := ⟨2, ![4, 8388608]⟩
abbrev S1x8388608 : Shape := ⟨2, ![1, 8388608]⟩
abbrev S3x8388608 : Shape := ⟨2, ![3, 8388608]⟩
abbrev S4x524288 : Shape := ⟨2, ![4, 524288]⟩
abbrev S1x524288 : Shape := ⟨2, ![1, 524288]⟩
abbrev S3x524288 : Shape := ⟨2, ![3, 524288]⟩
abbrev S524288 : Shape := ⟨1, ![524288]⟩

abbrev nBuf : Space → Nat
  | .hbm => 3
  | .vmem => 6
  | .smem => 0
  | _ => 0

abbrev bufTy : (tb : Table) → Fin (tcTables nBuf tb) → BufTy
  | .hbm, ⟨0, _⟩ => ⟨S4x8388608, .f32⟩
  | .hbm, ⟨1, _⟩ => ⟨S1x8388608, .f32⟩
  | .hbm, ⟨2, _⟩ => ⟨S3x8388608, .f32⟩
  | .local _ .vmem, ⟨0, _⟩ => ⟨S4x524288, .f32⟩
  | .local _ .vmem, ⟨1, _⟩ => ⟨S4x524288, .f32⟩
  | .local _ .vmem, ⟨2, _⟩ => ⟨S1x524288, .f32⟩
  | .local _ .vmem, ⟨3, _⟩ => ⟨S1x524288, .f32⟩
  | .local _ .vmem, ⟨4, _⟩ => ⟨S3x524288, .f32⟩
  | .local _ .vmem, ⟨5, _⟩ => ⟨S3x524288, .f32⟩
  | _, _ => ⟨S4x8388608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x524288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x524288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x524288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4x524288_S1x524288_0_0 : ∀ a, (![0, 0] : Fin 2 → Nat) a + S1x524288.size a ≤ S4x524288.size a
  h_S1x524288 : 0 < S1x524288.numel
  shapeCasts_S1x524288_S524288 : S1x524288.ShapeCasts S524288
  inb_S1x524288_S1x524288_0_0 : ∀ a, (![0, 0] : Fin 2 → Nat) a + S1x524288.size a ≤ S1x524288.size a
  shapeCasts_S524288_S1x524288 : S524288.ShapeCasts S1x524288
  inb_S4x524288_S1x524288_1_0 : ∀ a, (![1, 0] : Fin 2 → Nat) a + S1x524288.size a ≤ S4x524288.size a
  inb_S3x524288_S1x524288_0_0 : ∀ a, (![0, 0] : Fin 2 → Nat) a + S1x524288.size a ≤ S3x524288.size a
  inb_S4x524288_S1x524288_2_0 : ∀ a, (![2, 0] : Fin 2 → Nat) a + S1x524288.size a ≤ S4x524288.size a
  inb_S3x524288_S1x524288_1_0 : ∀ a, (![1, 0] : Fin 2 → Nat) a + S1x524288.size a ≤ S3x524288.size a
  inb_S4x524288_S1x524288_3_0 : ∀ a, (![3, 0] : Fin 2 → Nat) a + S1x524288.size a ≤ S4x524288.size a
  inb_S3x524288_S1x524288_2_0 : ∀ a, (![2, 0] : Fin 2 → Nat) a + S1x524288.size a ≤ S3x524288.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x524288.size a ≤ S4x8388608.size a
  hwx0_0 : ∀ i : grid0.Coords, EltTy.bits .f32 = 32 ∨ (Rect.block (s := S4x8388608) S4x524288.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x524288.size a ≤ S1x8388608.size a
  hwx0_1 : ∀ i : grid0.Coords, EltTy.bits .f32 = 32 ∨ (Rect.block (s := S1x8388608) S1x524288.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x524288.size a ≤ S3x8388608.size a
  hwx0_2 : ∀ i : grid0.Coords, EltTy.bits .f32 = 32 ∨ (Rect.block (s := S3x8388608) S3x524288.size (cc0_transform_2 i) (hinb0_2 i)).WholeWords (EltTy.packing .f32)

variable [Facts₀]

abbrev win0_0 : Pipeline.Window sig grid0 :=
  Pipeline.Window.ofSpec (Memref.whole main_arg0) S4x524288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x524288.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S3x524288.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8388608 : Shape := ⟨2, ![4, 8388608]⟩
abbrev S1 : Shape := ⟨1, ![1]⟩
abbrev S3 : Shape := ⟨1, ![3]⟩
abbrev S_ : Shape := ⟨0, ![]⟩
abbrev S1x1 : Shape := ⟨2, ![1, 1]⟩
abbrev S1x8388608 : Shape := ⟨2, ![1, 8388608]⟩
abbrev S3x1 : Shape := ⟨2, ![3, 1]⟩
abbrev S3x8388608 : Shape := ⟨2, ![3, 8388608]⟩

abbrev nBuf : Space → Nat
  | .hbm => 21
  | .vmem => 0
  | .smem => 0
  | _ => 0

abbrev bufTy : (tb : Table) → Fin (tcTables nBuf tb) → BufTy
  | .hbm, ⟨0, _⟩ => ⟨S4x8388608, .f32⟩
  | .hbm, ⟨1, _⟩ => ⟨S1, .i32⟩
  | .hbm, ⟨2, _⟩ => ⟨S3, .i32⟩
  | .hbm, ⟨3, _⟩ => ⟨S_, .i32⟩
  | .hbm, ⟨4, _⟩ => ⟨S1, .i32⟩
  | .hbm, ⟨5, _⟩ => ⟨S1, .i1⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S1, .i32⟩
  | .hbm, ⟨10, _⟩ => ⟨S1x1, .i32⟩
  | .hbm, ⟨11, _⟩ => ⟨S1x8388608, .f32⟩
  | .hbm, ⟨12, _⟩ => ⟨S_, .i32⟩
  | .hbm, ⟨13, _⟩ => ⟨S3, .i32⟩
  | .hbm, ⟨14, _⟩ => ⟨S3, .i1⟩
  | .hbm, ⟨15, _⟩ => ⟨S_, .i32⟩
  | .hbm, ⟨16, _⟩ => ⟨S3, .i32⟩
  | .hbm, ⟨17, _⟩ => ⟨S3, .i32⟩
  | .hbm, ⟨18, _⟩ => ⟨S3, .i32⟩
  | .hbm, ⟨19, _⟩ => ⟨S3x1, .i32⟩
  | .hbm, ⟨20, _⟩ => ⟨S3x8388608, .f32⟩
  | _, _ => ⟨S4x8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_v0 : Ref sig .tc := ⟨.hbm, 4, rfl⟩
abbrev main_v1 : Ref sig .tc := ⟨.hbm, 5, rfl⟩
abbrev main_c_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_3 : Ref sig .tc := ⟨.hbm, 12, rfl⟩
abbrev main_v7 : Ref sig .tc := ⟨.hbm, 13, rfl⟩
abbrev main_v8 : Ref sig .tc := ⟨.hbm, 14, rfl⟩
abbrev main_c_4 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  bcast_S_S3 : S_.BroadcastsInDim S3 (![] : Fin 0 → Fin S3.rank)
  bcast_S3_S3x1_0 : S3.BroadcastsInDim S3x1 (![0] : Fin 1 → Fin S3x1.rank)
  gather_S4x8388608_S1x1_S1x8388608_1_0_n_n_0_1_18388608_wf : GatherDims.WF S4x8388608 S1x1 S1x8388608 [1] [0] [] [0] [] 1 ![1, 8388608]
  gather_S4x8388608_S3x1_S3x8388608_1_0_n_n_0_1_18388608_wf : GatherDims.WF S4x8388608 S3x1 S3x8388608 [1] [0] [] [0] [] 1 ![1, 8388608]

variable [Facts₀]

def gather_S4x8388608_S1x1_S1x8388608_1_0_n_n_0_1_18388608 : GatherDims S4x8388608 S1x1 S1x8388608 where
  offsetDims := [1]
  collapsedSliceDims := [0]
  operandBatchingDims := []
  startIndicesBatchingDims := []
  startIndexMap := [0]
  indexVectorDim := 1
  sliceSizes := ![1, 8388608]
  wf := gather_S4x8388608_S1x1_S1x8388608_1_0_n_n_0_1_18388608_wf
def gather_S4x8388608_S3x1_S3x8388608_1_0_n_n_0_1_18388608 : GatherDims S4x8388608 S3x1 S3x8388608 where
  offsetDims := [1]
  collapsedSliceDims := [0]
  operandBatchingDims := []
  startIndicesBatchingDims := []
  startIndexMap := [0]
  indexVectorDim := 1
  sliceSizes := ![1, 8388608]
  wf := gather_S4x8388608_S3x1_S3x8388608_1_0_n_n_0_1_18388608_wf

class Facts : Prop extends Facts₀ where

variable [Facts]
-- ==== Proof.RouteSpec.lean ====
/-
  The routing as ONE function of the argument array. Four tokens, each a feature row of 8388608 entries; token 0 is sent
  to path 0 and tokens 1, 2, 3 to path 1, each with its whole row, nothing computed:
    `path0 x` is the `[1, 8388608]` array whose one row is row 0 of `x`;
    `path1 x` is the `[3, 8388608]` array whose row `k` is row `k + 1` of `x`.
  Both programs' results are these two functions of the argument, index by index.
-/
import Idealize.ShloMosaic.Lib.ValueIdx

noncomputable section

namespace Cert.Route

open Idealize.ShloMosaic Idealize.ShloMosaic.ValueIdx

variable {α : Type}

/-- Path 0: row 0 of the argument, as a one-row array. -/
def path0 (x : (⟨2, ![4, 8388608]⟩ : Shape).Idx → α) : (⟨2, ![1, 8388608]⟩ : Shape).Idx → α :=
  fun i => x (ix2 (0 : Fin 4) (⟨(i 1).val, idx2_lt1 i⟩ : Fin 8388608))

/-- Path 1: rows 1, 2, 3 of the argument, as a three-row array (row `k` is the argument's row `k + 1`). -/
def path1 (x : (⟨2, ![4, 8388608]⟩ : Shape).Idx → α) : (⟨2, ![3, 8388608]⟩ : Shape).Idx → α :=
  fun i => x (ix2 (⟨(i 0).val + 1, by have := idx2_lt0 i; omega⟩ : Fin 4) (⟨(i 1).val, idx2_lt1 i⟩ : Fin 8388608))

theorem path0_apply (x : (⟨2, ![4, 8388608]⟩ : Shape).Idx → α) (r : Fin 1) (j : Fin 8388608) :
    path0 x (ix2 r j) = x (ix2 (0 : Fin 4) j) := rfl

theorem path1_apply (x : (⟨2, ![4, 8388608]⟩ : Shape).Idx → α) (r : Fin 3) (j : Fin 8388608) :
    path1 x (ix2 r j) = x (ix2 (⟨r.val + 1, by omega⟩ : Fin 4) j) := rfl

/-- `path0` at an index, with the argument's index given by its coordinates. -/
theorem path0_eq (x : (⟨2, ![4, 8388608]⟩ : Shape).Idx → α) (i : (⟨2, ![1, 8388608]⟩ : Shape).Idx) (a : Fin 4) (q : Fin 8388608)
    (ha : a.val = 0) (hq : q.val = (i 1).val) : path0 x i = x (ix2 a q) := by
  unfold path0
  exact congrArg x (funext fun b => Fin.ext (match b with | ⟨0, _⟩ => ha.symm | ⟨1, _⟩ => hq.symm))

/-- `path1` at an index, with the argument's index given by its coordinates. -/
theorem path1_eq (x : (⟨2, ![4, 8388608]⟩ : Shape).Idx → α) (i : (⟨2, ![3, 8388608]⟩ : Shape).Idx) (a : Fin 4) (q : Fin 8388608)
    (ha : a.val = (i 0).val + 1) (hq : q.val = (i 1).val) : path1 x i = x (ix2 a q) := by
  unfold path1
  exact congrArg x (funext fun b => Fin.ext (match b with | ⟨0, _⟩ => ha.symm | ⟨1, _⟩ => hq.symm))

end Cert.Route

end
-- ==== Proof.KernelRows.lean ====
/-
  The kernel's two result arrays after its run are the routing's two functions of the argument (`Cert.Route.path0`,
  `Cert.Route.path1`). The feature axis is cut into 16 blocks of 524288 columns; at grid point `t` the body has all four
  rows of the argument's block `t` and writes row 0 of it as path 0's block `t` and rows 1, 2, 3 of it as the three rows
  of path 1's block `t` (each row loaded, cast to a flat vector and back — the identity — and stored). So what point `t`
  writes back is block `t` of `path0` / `path1` of the argument: entry `(r, j)` of a block sits at column
  `t · 524288 + j` of its array on all three windows. The 16 blocks tile each result array (column `q` lies in block
  `q / 524288`), so each array ends as the whole function.
-/
import proofs.«104364_j46308337386319_1_alg».proof.Proof.Gen.KernelIdeal.Value
import proofs.«104364_j46308337386319_1_alg».proof.Proof.RouteSpec

noncomputable section

namespace Cert.KernelIdeal.Rows

open Cert.KernelIdeal Cert.KernelIdeal.Gen Idealize.ShloMosaic Idealize.ShloMosaic.TcCoe Idealize.SL.Sem
open Idealize.ShloMosaic.Pipeline (Dat)
open Idealize.ShloMosaic.ValueIdx Cert.Route

variable {F : FTy → Type} [FloatOps F]

/-! ## The body: each stored payload is the loaded row -/

theorem pay1_eq (P : Vec F S1x524288 .f32) : k0_pay1 P = P := shapeCast_shapeCast P _ _
theorem pay2_eq (P : Vec F S1x524288 .f32) : k0_pay2 P = P := shapeCast_shapeCast P _ _
theorem pay3_eq (P : Vec F S1x524288 .f32) : k0_pay3 P = P := shapeCast_shapeCast P _ _
theorem pay4_eq (P : Vec F S1x524288 .f32) : k0_pay4 P = P := shapeCast_shapeCast P _ _

theorem hz : (![0, 0] : Fin 2 → Nat) = fun _ => 0 := funext fun a => by fin_cases a <;> rfl

/-- Path 0's block after the body: its one row is row 0 of the input block. -/
theorem out1_apply (x0 : Vec F S4x524288 .f32) (r : Fin 1) (j : Fin 524288) :
    out0_1 x0 (ix2 r j) = x0 (ix2 (0 : Fin 4) j) := by
  unfold out0_1
  rw [pay1_eq, View.canon_unit_zero hz]
  show x0 (r0_0.emb (ix2 r j)) = _
  congr 1; funext a; apply Fin.ext
  match a with
  | ⟨0, _⟩ => show 0 + 1 * r.val = 0; omega
  | ⟨1, _⟩ => show 0 + 1 * j.val = j.val; omega

/-- Path 1's block after the body: its row `k` is row `k + 1` of the input block (three stores, one per row, which tile the block). -/
theorem out2_apply (x0 : Vec F S4x524288 .f32) (r : Fin 3) (j : Fin 524288) :
    out0_2 x0 (ix2 r j) = x0 (ix2 (⟨r.val + 1, by omega⟩ : Fin 4) j) := by
  unfold out0_2
  refine View.canon_apply_of_pieces
    (fun y : S3x524288.Idx => x0 (ix2 (⟨(y 0).val + 1, by have := idx2_lt0 y; omega⟩ : Fin 4) (⟨(y 1).val, idx2_lt1 y⟩ : Fin 524288)))
    _ ?_ (ix2 r j) (cover0_2 _ _ _ (ix2 r j))
  intro pc hpc
  rcases List.mem_cons.mp hpc with rfl | hpc
  · intro x
    show k0_pay4 (View.ld x0 r0_6) x = _
    rw [pay4_eq]
    show x0 (r0_6.emb x) = _
    congr 1; funext a; apply Fin.ext
    match a with
    | ⟨0, _⟩ => show 3 + 1 * (x 0).val = (2 + 1 * (x 0).val) + 1; omega
    | ⟨1, _⟩ => show 0 + 1 * (x 1).val = 0 + 1 * (x 1).val; rfl
  rcases List.mem_cons.mp hpc with rfl | hpc
  · intro x
    show k0_pay3 (View.ld x0 r0_4) x = _
    rw [pay3_eq]
    show x0 (r0_4.emb x) = _
    congr 1; funext a; apply Fin.ext
    match a with
    | ⟨0, _⟩ => show 2 + 1 * (x 0).val = (1 + 1 * (x 0).val) + 1; omega
    | ⟨1, _⟩ => show 0 + 1 * (x 1).val = 0 + 1 * (x 1).val; rfl
  rcases List.mem_cons.mp hpc with rfl | hpc
  · intro x
    show k0_pay2 (View.ld x0 r0_2) x = _
    rw [pay2_eq]
    show x0 (r0_2.emb x) = _
    congr 1; funext a; apply Fin.ext
    match a with
    | ⟨0, _⟩ => show 1 + 1 * (x 0).val = (0 + 1 * (x 0).val) + 1; omega
    | ⟨1, _⟩ => show 0 + 1 * (x 1).val = 0 + 1 * (x 1).val; rfl
  nomatch hpc

/-! ## From blocks to the arrays -/

variable (m : (ℓ : Loc nD τ sig) → Buf (Elt F) ℓ) (ρ : Dev nD → PrngReg)

/-- The printed index maps over the 16 grid points: every window's block at point `t` is block row 0, block column `t`. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- There are 16 grid points. -/
theorem point_lt (t : Fin cfg0.N) : t.val < 16 := lt_of_lt_of_eq t.isLt N_0

/-- Entry `(a, j)` of the input block at point `t` is the argument at row `a`, column `t · 524288 + j`. -/
theorem iblk_apply (c : Dev nD) (t : Fin cfg0.N) (a : Fin 4) (j : Fin 524288) :
    iblk m c 0 t (ix2 a j)
      = V m c main_arg0 (ix2 a (⟨t.val * 524288 + j.val, by have := point_lt t; omega⟩ : Fin 8388608)) := by
  obtain ⟨e0, e1, -⟩ := idx_facts t
  show V m c main_arg0 (((cfg0.win 0).blk t).view.emb (ix2 a j)) = _
  refine congrArg (V m c main_arg0) (funext fun b => Fin.ext ?_)
  match b with
  | ⟨0, _⟩ => show win0_0.index t (0 : Fin 2) * 4 + 1 * a.val = a.val; omega
  | ⟨1, _⟩ => show win0_0.index t (1 : Fin 2) * 524288 + 1 * j.val = t.val * 524288 + j.val; omega

/-- WHAT POINT `t` WRITES BACK to path 0's array is block `t` of `path0` of the argument. -/
theorem flushed1_eq (c : Dev nD) (t : Fin cfg0.N) :
    (dats m 0 c).flushed 1 t = ((cfg0.win 1).blk t).view.read (Elt F) (path0 (V m c main_arg0)) := by
  rw [Value.flushed1]
  obtain ⟨-, -, e2, e3, -⟩ := idx_facts t
  funext y
  obtain ⟨r, j, rfl⟩ : ∃ (r : Fin 1) (j : Fin 524288), y = ix2 r j := ⟨y 0, y 1, eq_ix2 y⟩
  show out0_1 (iblk m c 0 t) (ix2 r j) = path0 (V m c main_arg0) (((cfg0.win 1).blk t).view.emb (ix2 r j))
  refine (out1_apply _ r j).trans ?_
  refine (iblk_apply m c t 0 j).trans ?_
  exact (path0_eq _ _ _ _ rfl
    (by show t.val * 524288 + j.val = win0_1.index t (1 : Fin 2) * 524288 + 1 * j.val; omega)).symm

/-- WHAT POINT `t` WRITES BACK to path 1's array is block `t` of `path1` of the argument. -/
theorem flushed2_eq (c : Dev nD) (t : Fin cfg0.N) :
    (dats m 0 c).flushed 2 t = ((cfg0.win 2).blk t).view.read (Elt F) (path1 (V m c main_arg0)) := by
  rw [Value.flushed2]
  obtain ⟨-, -, -, -, e4, e5⟩ := idx_facts t
  funext y
  obtain ⟨r, j, rfl⟩ : ∃ (r : Fin 3) (j : Fin 524288), y = ix2 r j := ⟨y 0, y 1, eq_ix2 y⟩
  show out0_2 (iblk m c 0 t) (ix2 r j) = path1 (V m c main_arg0) (((cfg0.win 2).blk t).view.emb (ix2 r j))
  refine (out2_apply _ r j).trans ?_
  refine (iblk_apply m c t _ j).trans ?_
  exact (path1_eq _ _ _ _
    (by show r.val + 1 = (win0_2.index t (0 : Fin 2) * 3 + 1 * r.val) + 1; omega)
    (by show t.val * 524288 + j.val = win0_2.index t (1 : Fin 2) * 524288 + 1 * j.val; omega)).symm

/-- The point whose blocks hold column `q`: `q / 524288`. -/
def pointOf (q : Nat) (hq : q < 8388608) : Fin cfg0.N := ⟨q / 524288, lt_of_lt_of_eq (by omega : q / 524288 < 16) N_0.symm⟩

/-- An index of path 0's array is in point `t`'s block iff each coordinate is in the block's range on its axis. -/
theorem mem_blk1 (t : Fin cfg0.N) (i : S1x8388608.Idx) :
    i ∈ ((cfg0.win 1).blk t).view.set ↔ ∀ a : Fin 2, win0_1.index t a * S1x524288.size a ≤ (i a).val ∧ (i a).val < win0_1.index t a * S1x524288.size a + S1x524288.size a := by
  show i ∈ ((View.whole main_v0_0).slice (win0_1.rect t)).set ↔ _
  rw [View.set_slice_whole, Rect.mem_set_unit]
  exact Iff.rfl

/-- The same for path 1's array. -/
theorem mem_blk2 (t : Fin cfg0.N) (i : S3x8388608.Idx) :
    i ∈ ((cfg0.win 2).blk t).view.set ↔ ∀ a : Fin 2, win0_2.index t a * S3x524288.size a ≤ (i a).val ∧ (i a).val < win0_2.index t a * S3x524288.size a + S3x524288.size a := by
  show i ∈ ((View.whole main_v0_1).slice (win0_2.rect t)).set ↔ _
  rw [View.set_slice_whole, Rect.mem_set_unit]
  exact Iff.rfl

/-- Path 0's blocks cover its array: column `q` is in the block of point `q / 524288`. -/
theorem cover1 (i : S1x8388608.Idx) : ∃ t : Fin cfg0.N, (cfg0.win 1).flush t = true ∧ i ∈ ((cfg0.win 1).blk t).view.set := by
  have hi0 : (i 0).val < 1 := idx2_lt0 i
  have hi1 : (i 1).val < 8388608 := idx2_lt1 i
  refine ⟨pointOf (i 1).val hi1, flush0_1 _, ?_⟩
  obtain ⟨-, -, e2, e3, -⟩ := idx_facts (pointOf (i 1).val hi1)
  have e3' : win0_1.index (pointOf (i 1).val hi1) (1 : Fin 2) = (i 1).val / 524288 := e3
  rw [mem_blk1]
  intro a
  match a with
  | ⟨0, _⟩ => show win0_1.index (pointOf (i 1).val hi1) (0 : Fin 2) * 1 ≤ (i 0).val ∧ (i 0).val < win0_1.index (pointOf (i 1).val hi1) (0 : Fin 2) * 1 + 1; omega
  | ⟨1, _⟩ => show win0_1.index (pointOf (i 1).val hi1) (1 : Fin 2) * 524288 ≤ (i 1).val ∧ (i 1).val < win0_1.index (pointOf (i 1).val hi1) (1 : Fin 2) * 524288 + 524288; omega

/-- Path 1's blocks cover its array. -/
theorem cover2 (i : S3x8388608.Idx) : ∃ t : Fin cfg0.N, (cfg0.win 2).flush t = true ∧ i ∈ ((cfg0.win 2).blk t).view.set := by
  have hi0 : (i 0).val < 3 := idx2_lt0 i
  have hi1 : (i 1).val < 8388608 := idx2_lt1 i
  refine ⟨pointOf (i 1).val hi1, flush0_2 _, ?_⟩
  obtain ⟨-, -, -, -, e4, e5⟩ := idx_facts (pointOf (i 1).val hi1)
  have e5' : win0_2.index (pointOf (i 1).val hi1) (1 : Fin 2) = (i 1).val / 524288 := e5
  rw [mem_blk2]
  intro a
  match a with
  | ⟨0, _⟩ => show win0_2.index (pointOf (i 1).val hi1) (0 : Fin 2) * 3 ≤ (i 0).val ∧ (i 0).val < win0_2.index (pointOf (i 1).val hi1) (0 : Fin 2) * 3 + 3; omega
  | ⟨1, _⟩ => show win0_2.index (pointOf (i 1).val hi1) (1 : Fin 2) * 524288 ≤ (i 1).val ∧ (i 1).val < win0_2.index (pointOf (i 1).val hi1) (1 : Fin 2) * 524288 + 524288; omega

/-- Path 0's array after the run is `path0` of the argument. -/
theorem final1 (c : Dev nD) : (dats m 0 c).arrAt 1 cfg0.N = path0 (m ((c : Thread nD τ).loc main_arg0)) :=
  (dats m 0 c).arrAt_eq_of_cover 1 (path0 (V m c main_arg0)) (fun t _ => flushed1_eq m c t) cover1

/-- Path 1's array after the run is `path1` of the argument. -/
theorem final2 (c : Dev nD) : (dats m 0 c).arrAt 2 cfg0.N = path1 (m ((c : Thread nD τ).loc main_arg0)) :=
  (dats m 0 c).arrAt_eq_of_cover 2 (path1 (V m c main_arg0)) (fun t _ => flushed2_eq m c t) cover2

/-- THE RUN: every weakly fair execution of the kernel's @main terminates with the two results at `path0` and `path1` of
    the argument, the argument unchanged. -/
theorem run : θ_run defs (onTc (τ := τ) (main (F := F))) ⟨m, fun _ => 0, ρ⟩ fun r => ∀ c : Dev nD,
      r.2.mem ((c : Thread nD τ).loc main_v0_0) = path0 (m ((c : Thread nD τ).loc main_arg0))
      ∧ r.2.mem ((c : Thread nD τ).loc main_v0_1) = path1 (m ((c : Thread nD τ).loc main_arg0))
      ∧ r.2.mem ((c : Thread nD τ).loc main_arg0) = m ((c : Thread nD τ).loc main_arg0) :=
  (θ_run defs _ _).mono (fun r h c => ⟨(h c).1.trans (final1 m c), (h c).2.1.trans (final2 m c), (h c).2.2⟩)
    (Value.run_blocks m ρ)

end Cert.KernelIdeal.Rows

end
-- ==== Proof.RefRun.lean ====
/-
  The reference program's @main, read as a list of its twenty host operations, and its run: every weakly fair
  execution terminates with the two results at the operations' composed terms of the argument and the argument
  unchanged. The two results are two gathers of the argument's rows: the first at the one-entry column of start
  indices `rows0`, the second at the three-entry column `rows1`. Each column is a constant table of row numbers put
  through jnp's wrap of negative indices (an entry below 0 has the row count 4 added) and laid as a column.
-/
import proofs.«104364_j46308337386319_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's twenty operations, in order. -/
abbrev ops : List (HloOp τ sig (Elt F)) :=
  [ nullary main_c (constantI S1 32 0#32),
    nullary main_c_0 (fun i => lit0 (S3.rowMajor i)),
    nullary main_c_1 (constantI S_ 32 0#32),
    unary main_c_1 main_v0 (broadcastInDim S1 ![] bcast_S_S1 : (⟨S_, .i32⟩ : BufTy).Contents (Elt F) → (⟨S1, .i32⟩ : BufTy).Contents (Elt F)),
    binary main_c main_v0 main_v1 (cmpi .slt : (⟨S1, .i32⟩ : BufTy).Contents (Elt F) → (⟨S1, .i32⟩ : BufTy).Contents (Elt F) → (⟨S1, .i1⟩ : BufTy).Contents (Elt F)),
    nullary main_c_2 (constantI S_ 32 4#32),
    unary main_c_2 main_v2 (broadcastInDim S1 ![] bcast_S_S1 : (⟨S_, .i32⟩ : BufTy).Contents (Elt F) → (⟨S1, .i32⟩ : BufTy).Contents (Elt F)),
    binary main_c main_v2 main_v3 (addi : (⟨S1, .i32⟩ : BufTy).Contents (Elt F) → (⟨S1, .i32⟩ : BufTy).Contents (Elt F) → (⟨S1, .i32⟩ : BufTy).Contents (Elt F)),
    ternary main_v1 main_v3 main_c main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg0 main_v5 main_v6 ((fun x i => Host.gather gather_S4x8388608_S1x1_S1x8388608_1_0_n_n_0_1_18388608 x i) : (⟨S4x8388608, .f32⟩ : BufTy).Contents (Elt F) → (⟨S1x1, .i32⟩ : BufTy).Contents (Elt F) → (⟨S1x8388608, .f32⟩ : BufTy).Contents (Elt F)),
    nullary main_c_3 (constantI S_ 32 0#32),
    unary main_c_3 main_v7 (broadcastInDim S3 ![] bcast_S_S3 : (⟨S_, .i32⟩ : BufTy).Contents (Elt F) → (⟨S3, .i32⟩ : BufTy).Contents (Elt F)),
    binary main_c_0 main_v7 main_v8 (cmpi .slt : (⟨S3, .i32⟩ : BufTy).Contents (Elt F) → (⟨S3, .i32⟩ : BufTy).Contents (Elt F) → (⟨S3, .i1⟩ : BufTy).Contents (Elt F)),
    nullary main_c_4 (constantI S_ 32 4#32),
    unary main_c_4 main_v9 (broadcastInDim S3 ![] bcast_S_S3 : (⟨S_, .i32⟩ : BufTy).Contents (Elt F) → (⟨S3, .i32⟩ : BufTy).Contents (Elt F)),
    binary main_c_0 main_v9 main_v10 (addi : (⟨S3, .i32⟩ : BufTy).Contents (Elt F) → (⟨S3, .i32⟩ : BufTy).Contents (Elt F) → (⟨S3, .i32⟩ : BufTy).Contents (Elt F)),
    ternary main_v8 main_v10 main_c_0 main_v11 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    unary main_v11 main_v12 (broadcastInDim S3x1 ![0] bcast_S3_S3x1_0 : (⟨S3, .i32⟩ : BufTy).Contents (Elt F) → (⟨S3x1, .i32⟩ : BufTy).Contents (Elt F)),
    binary main_arg0 main_v12 main_v13 ((fun x i => Host.gather gather_S4x8388608_S3x1_S3x8388608_1_0_n_n_0_1_18388608 x i) : (⟨S4x8388608, .f32⟩ : BufTy).Contents (Elt F) → (⟨S3x1, .i32⟩ : BufTy).Contents (Elt F) → (⟨S3x8388608, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., unary_bufs_sub .., binary_bufs_sub ..,
   nullary_bufs_sub .., unary_bufs_sub .., binary_bufs_sub .., ternary_bufs_sub .., unary_bufs_sub ..,
   binary_bufs_sub .., nullary_bufs_sub .., unary_bufs_sub .., binary_bufs_sub .., nullary_bufs_sub ..,
   unary_bufs_sub .., binary_bufs_sub .., ternary_bufs_sub .., unary_bufs_sub .., binary_bufs_sub ..⟩

/-- The first gather's start indices: the constant table `[0]`, an entry below 0 moved up by 4, as a `[1, 1]` column. -/
abbrev rows0 : IVec S1x1 32 :=
  broadcastInDim S1x1 ![0] bcast_S1_S1x1_0
    (select (cmpi .slt (constantI S1 32 0#32) (broadcastInDim S1 ![] bcast_S_S1 (constantI S_ 32 0#32)))
      (addi (constantI S1 32 0#32) (broadcastInDim S1 ![] bcast_S_S1 (constantI S_ 32 4#32)))
      (constantI S1 32 0#32))

/-- The second gather's start indices: the constant table `[1, 2, 3]`, an entry below 0 moved up by 4, as a `[3, 1]` column. -/
abbrev rows1 : IVec S3x1 32 :=
  broadcastInDim S3x1 ![0] bcast_S3_S3x1_0
    (select (cmpi .slt (fun i => lit0 (S3.rowMajor i)) (broadcastInDim S3 ![] bcast_S_S3 (constantI S_ 32 0#32)))
      (addi (fun i => lit0 (S3.rowMajor i)) (broadcastInDim S3 ![] bcast_S_S3 (constantI S_ 32 4#32)))
      (fun i => lit0 (S3.rowMajor i)))

/-- On every device, from any memory with zero counters: every weakly fair execution of @main terminates with the two
    results at the gathers of the argument's rows and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
        = Host.gather gather_S4x8388608_S1x1_S1x8388608_1_0_n_n_0_1_18388608 (m ((c.tc : Thread nD τ).loc main_arg0)) rows0
      ∧ r.2.mem ((c.tc : Thread nD τ).loc main_v13)
        = Host.gather gather_S4x8388608_S3x1_S3x8388608_1_0_n_n_0_1_18388608 (m ((c.tc : Thread nD τ).loc main_arg0)) rows1
      ∧ r.2.mem ((c.tc : Thread nD τ).loc main_arg0) = m ((c.tc : Thread nD τ).loc main_arg0) :=
  (θ_run defs _ _).mono (fun _ h c => ⟨(h c main_v6).trans (by after_results),
      (h c main_v13).trans (by after_results <;> rfl),
      (h c main_arg0).trans (by after_results)⟩)
    (run_seq scopedRefs_eq scopedSems_eq defs main (fun _ => ops) main_eq (fun _ => ops_sub) m ρ)

end Cert.ReferenceIdeal.RefRun

end
-- ==== Proof.LibGatherRows.lean ====
/-
  A `stablehlo.gather` that takes whole ROWS of a matrix. Operand `[N, D]`, start indices an `[R, 1]` column of row
  numbers, result `[R, D]`: the result's second axis is the offset axis, the operand's first axis is collapsed and
  start-indexed, the index vector sits on the start indices' axis 1 and the slice sizes are `[1, D]` — what `x[idx]`
  of a matrix `x` at an integer vector `idx` lowers to. Result element `(r, j)` is the operand at row `idx[r, 0]`,
  read as a signed integer and clamped into `[0, N − 1]` (StableHLO clamps every start index so that the slice fits),
  and at column `j`: on the row axis the offset coordinate is 0 (the axis is collapsed), on the column axis the start
  is 0 (the start index map does not name it) and the offset coordinate is the result's own column.
-/
import Idealize.ShloMosaic.Lib.ValueIdx

noncomputable section

namespace Cert.Lib.GatherRows

open Idealize.ShloMosaic Idealize.ShloMosaic.ValueIdx

variable {α : Type}

/-- The row-gather's dimension numbers for an operand `[N, D]`, start indices `[R, 1]` and result `[R, D]`; their
    conditions `wf` are decided on a program's literal shapes. -/
abbrev rowsDims (N R D : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- Entry `r` of an `[R, 1]` column. -/
abbrev colIdx {R : Nat} (r : Fin R) : (⟨2, ![R, 1]⟩ : Shape).Idx := ix2 r (0 : Fin 1)

/-- THE ROW GATHER READ AT `(r, j)`: the operand at row `idx[r, 0]` (signed, clamped into `[0, N − 1]`), column `j`. -/
theorem gather_rows_apply {N R D w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (j : Fin D) :
    Host.gather (rowsDims N R D wf) x idx (ix2 r j)
      = x (ix2 (⟨min (idx (colIdx r)).toInt.toNat (N - 1), by omega⟩ : Fin N) j) := by
  unfold Host.gather
  congr 1
  funext a
  refine Fin.ext ?_
  match a with
  | ⟨0, _⟩ =>
    -- the row axis: collapsed (no offset coordinate), not batching, start-indexed
    show (rowsDims N R D wf).start (ix2 r j) idx 0 + (rowsDims N R D wf).batchCoord (ix2 r j) 0
        + (rowsDims N R D wf).offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R D wf).startIndexMap from List.mem_singleton.mpr rfl)]
    have hsi : (rowsDims N R D wf).siIdx (ix2 r j) ⟨List.idxOf (0 : Fin 2) (rowsDims N R D wf).startIndexMap,
        List.idxOf_lt_length_iff.2 (List.mem_singleton.mpr rfl)⟩ = colIdx r := by
      funext b; refine Fin.ext ?_
      match b with
      | ⟨0, _⟩ => rfl
      | ⟨1, _⟩ => rfl
    rw [hsi]
    rfl
  | ⟨1, _⟩ =>
    -- the column axis: kept (the offset coordinate is the result's column), not batching, not start-indexed
    show (rowsDims N R D wf).start (ix2 r j) idx 1 + (rowsDims N R D wf).batchCoord (ix2 r j) 1
        + (rowsDims N R D wf).offCoord (ix2 r j) 1 = j.val
    rw [GatherDims.batchCoord_eq_zero _ _ _ List.not_mem_nil]
    unfold GatherDims.start
    have h10 : (1 : Fin 2) ∉ ([0] : List (Fin 2)) := by decide
    rw [dif_neg (show (1 : Fin 2) ∉ (rowsDims N R D wf).startIndexMap from h10)]
    simp only [Nat.add_zero, Nat.zero_add]
    unfold GatherDims.offCoord
    rw [dif_pos ((GatherDims.mem_sKept _ _).2 ⟨h10, List.not_mem_nil⟩ : (1 : Fin 2) ∈ (rowsDims N R D wf).sKept)]
    rfl

end Cert.Lib.GatherRows

end
-- ==== Proof.RefRows.lean ====
/-
  The reference's two results are the routing's two functions of the argument (`Cert.Route.path0`, `Cert.Route.path1`).
  Each result is a gather of whole rows of the argument at a column of row numbers. The first column holds the one
  number 0, the second the numbers 1, 2, 3: the constant tables are non-negative, so jnp's wrap of a negative index
  (add the row count 4) leaves them as they are, and they are below 4, so the gather's clamp into `[0, 3]` leaves them
  too. Result `(r, j)` of the first is therefore the argument at `(0, j)`, of the second at `(r + 1, j)`.
-/
import proofs.«104364_j46308337386319_1_alg».proof.Proof.RefRun
import proofs.«104364_j46308337386319_1_alg».proof.Proof.LibGatherRows
import proofs.«104364_j46308337386319_1_alg».proof.Proof.RouteSpec

noncomputable section

namespace Cert.ReferenceIdeal.RefRows

open Cert.ReferenceIdeal Cert.ReferenceIdeal.Gen Cert.ReferenceIdeal.RefRun Idealize.ShloMosaic
open Idealize.ShloMosaic.ValueIdx Cert.Lib.GatherRows Cert.Route

variable {F : FTy → Type} [FloatOps F]

/-- The first column's entry, read signed and clamped into `[0, 3]`, is row 0. -/
theorem row_of_rows0 (r : Fin 1) : min (rows0 (colIdx r)).toInt.toNat (4 - 1) = 0 := by
  obtain rfl : r = 0 := Subsingleton.elim _ _
  decide

/-- The second column's entry `k`, read signed and clamped into `[0, 3]`, is row `k + 1`. -/
theorem row_of_rows1 (k : Fin 3) : min (rows1 (colIdx k)).toInt.toNat (4 - 1) = k.val + 1 := by
  fin_cases k <;> decide

/-- The first result is path 0 of the argument. -/
theorem result0_eq (x : S4x8388608.Idx → Elt F .f32) :
    Host.gather gather_S4x8388608_S1x1_S1x8388608_1_0_n_n_0_1_18388608 x rows0 = path0 x := by
  funext i
  obtain ⟨r, j, rfl⟩ : ∃ (r : Fin 1) (j : Fin 8388608), i = ix2 r j := ⟨i 0, i 1, eq_ix2 i⟩
  refine (gather_rows_apply (by decide) _ x rows0 r j).trans ?_
  rw [path0_apply]
  exact congrArg (fun a : Fin 4 => x (ix2 a j)) (Fin.ext (row_of_rows0 r))

/-- The second result is path 1 of the argument. -/
theorem result1_eq (x : S4x8388608.Idx → Elt F .f32) :
    Host.gather gather_S4x8388608_S3x1_S3x8388608_1_0_n_n_0_1_18388608 x rows1 = path1 x := by
  funext i
  obtain ⟨r, j, rfl⟩ : ∃ (r : Fin 3) (j : Fin 8388608), i = ix2 r j := ⟨i 0, i 1, eq_ix2 i⟩
  refine (gather_rows_apply (by decide) _ x rows1 r j).trans ?_
  rw [path1_apply]
  exact congrArg (fun a : Fin 4 => x (ix2 a j)) (Fin.ext (row_of_rows1 r))

end Cert.ReferenceIdeal.RefRows

end
-- ==== Proof.lean ====
/-
  The certificate of a routing kernel against its jnp reference. The argument is four feature rows of 8388608 entries.
  The reference gathers row 0 into a one-row array and rows 1, 2, 3 into a three-row array (two `stablehlo.gather`s of
  whole rows at constant row numbers). The kernel walks the feature axis in 16 blocks of 524288 columns and, at each block,
  copies row 0 of the block to the first result's block and rows 1, 2, 3 to the second's. Nothing is computed on the
  entries, so both programs' results are the same two re-indexings of the argument, `Cert.Route.path0` and
  `Cert.Route.path1` (Proof/RouteSpec.lean), and the equality needs no property of the entries: the precondition is
  never opened.
    Proof/LibGatherRows.lean — a gather of whole rows of a matrix read at an index (general);
    Proof/RefRun.lean        — the reference's @main as its list of host operations, and its run;
    Proof/RefRows.lean       — the reference's two results are `path0` and `path1` of the argument;
    Proof/KernelRows.lean    — the kernel's two result arrays are `path0` and `path1` of the argument.
  The two kernel frames are the generated frame certificates; the reference's frame is its run with the results dropped;
  the idealization rewrote nothing, so `preserves` is `True`.
-/
import proofs.«104364_j46308337386319_1_alg».proof.Defs
import proofs.«104364_j46308337386319_1_alg».proof.Proof.Gen.Kernel
import proofs.«104364_j46308337386319_1_alg».proof.Proof.Gen.Kernel.Skeleton
import proofs.«104364_j46308337386319_1_alg».proof.Proof.Gen.Kernel.Launch
import proofs.«104364_j46308337386319_1_alg».proof.Proof.Gen.Kernel.Points
import proofs.«104364_j46308337386319_1_alg».proof.Proof.Gen.Kernel.Frame
import proofs.«104364_j46308337386319_1_alg».proof.Proof.Gen.KernelIdeal
import proofs.«104364_j46308337386319_1_alg».proof.Proof.Gen.KernelIdeal.Skeleton
import proofs.«104364_j46308337386319_1_alg».proof.Proof.Gen.KernelIdeal.Launch
import proofs.«104364_j46308337386319_1_alg».proof.Proof.Gen.KernelIdeal.Points
import proofs.«104364_j46308337386319_1_alg».proof.Proof.Gen.KernelIdeal.Frame
import proofs.«104364_j46308337386319_1_alg».proof.Proof.Gen.KernelIdeal.Value
import proofs.«104364_j46308337386319_1_alg».proof.Proof.Gen.ReferenceIdeal
import proofs.«104364_j46308337386319_1_alg».proof.Proof.Gen.Pre_finite_inputs
import proofs.«104364_j46308337386319_1_alg».proof.Proof.KernelRows
import proofs.«104364_j46308337386319_1_alg».proof.Proof.RefRows
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the two results dropped. -/
theorem frame_ri : Cert.frame_ReferenceIdeal := fun m ρ _ =>
  (θ_run Cert.ReferenceIdeal.defs _ _).mono (fun _ h c => (h c).2.2) (Cert.ReferenceIdeal.RefRun.run (F := Ideal) m ρ)

/-- The ideal pass rewrote no operation. -/
theorem preserves : Cert.preserves_Kernel_KernelIdeal := trivial

/-- From memories agreeing on the argument both programs end with the first result at `path0` and the second at `path1`
    of that argument. -/
theorem algebraic : Cert.algebraic_KernelIdeal_ReferenceIdeal := by
  intro m ρ m' ρ' _ hagree
  refine ⟨_, _, Cert.KernelIdeal.Rows.run (F := Ideal) m ρ, ?_⟩
  refine (θ_run Cert.ReferenceIdeal.defs _ _).mono
    (fun _ h c => ⟨(h c).1.trans ?_, (h c).2.1.trans ?_, (h c).2.2⟩)
    (Cert.ReferenceIdeal.RefRun.run (F := Ideal) m' ρ')
  · rw [hagree c]
    exact Cert.ReferenceIdeal.RefRows.result0_eq _
  · rw [hagree c]
    exact Cert.ReferenceIdeal.RefRows.result1_eq _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
